-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S512x1024 : Shape := ⟨2, ![512, 1024]⟩
abbrev S1024x512 : Shape := ⟨2, ![1024, 512]⟩
abbrev S512x2048 : Shape := ⟨2, ![512, 2048]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 25
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .i1⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096x4096, .bf16⟩
  | .hbm, ⟨24, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x512, .f32⟩
  | .local _ .vmem, ⟨9, _⟩ => ⟨S1024x512, .f32⟩
  | .local _ .vmem, ⟨10, _⟩ => ⟨S512x2048, .bf16⟩
  | .local _ .vmem, ⟨11, _⟩ => ⟨S512x2048, .bf16⟩
  | .local _ .vmem, ⟨12, _⟩ => ⟨S2048, .f32⟩
  | .local _ .vmem, ⟨13, _⟩ => ⟨S2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096 : S_.BroadcastsInDim S4096 (![] : Fin 0 → Fin S4096.rank)
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .bf16 = 32 ∨ (Rect.block (s := S4096x4096) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Region0.lean ====
/-
  The first kernel region: the weight matrix, block by block.

  The grid has 8 × 4 points; at each the three 512×1024 input blocks (mu, rho, eps at the same block position) are
  loaded whole, the body computes mu + softplus(rho) · eps entrywise, narrows it, and stores it whole into the output
  block.  Nothing is carried from point to point, so what the output's staging buffer holds after a point is one
  function of the three input blocks at that point.  The region is stated at a parameter `V`: what the core's
  buffers hold when the region is entered.
-/
import proofs.«179641_j24034636989081_1_alg».proof.Proof.Gen.Kernel.Launch
import proofs.«179641_j24034636989081_1_alg».proof.Proof.Gen.Kernel.Skeleton
import proofs.«179641_j24034636989081_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (it is fetched at every point, and the body
    leaves it in place): one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 512×1024 block. -/
abbrev r0_0 : Rect S512x1024 := Rect.unit (s := S512x1024) ![0, 0] S512x1024.size inb_S512x1024_S512x1024_0_0

/-- The output block after the body, from the three input blocks: its single whole-block store. -/
def out0_3 (x0 x1 x2 : Vec F S512x1024 .f32) : Vec F S512x1024 .bf16 :=
  View.canon [⟨r0_0, k0_pay1 (View.ld x0 r0_0) (View.ld x1 r0_0) (View.ld x2 r0_0)⟩]

/-- That store covers the block. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 2000000 in
/-- The body on whole staging buffers: the three inputs are read and left as they were, the output ends at
    `out0_3` of them whatever it held. -/
theorem sound_kernel0 (c : Dev nD) (E : Set ℕ) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (x0 x1 x2 : Vec F S512x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__build_w_kernel i arg2 harg2 arg3 harg3 arg4 harg4 arg5 harg5) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at a point each input's
    buffer at its block and the output's at `out0_3` of the three blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at a point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The second kernel region: the matrix product, accumulated over the contracted axis.

  The grid has 8 × 2 × 8 points (row block i, column block j, contraction block k, k fastest).  An accumulator the
  size of one output block lives in scratch memory across points: where k = 0 it is first reset to zero; at every
  point the product of the 1024×512 block of x and the 512×2048 block of the weights is added to it; and the output
  block is overwritten with the accumulator plus the bias block (broadcast along rows).  The output block is written
  back where k = 7.  So what the scratch and the output buffer hold after a point is a recursion on the point:
  a fresh product where k = 0, the previous accumulator plus a product elsewhere.
  The region is stated at a parameter `V`: what the core's buffers hold when the region is entered.
-/
import proofs.«179641_j24034636989081_1_alg».proof.Proof.Gen.Kernel.Launch
import proofs.«179641_j24034636989081_1_alg».proof.Proof.Gen.Kernel.Skeleton
import proofs.«179641_j24034636989081_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not fetched
    its block index has not moved, and the body leaves the block in place): one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The reset condition -/

/-- The body's one branch condition, from the grid coordinates: "the contraction coordinate is zero". -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- No window is idle at any point. -/
theorem liveAt1_3 : ∀ t : Fin cfg1.N, cfg1.idle 3 (grid1.coords t) = false := by decide +kernel

/-! ## The buffers the body is called with -/

/-- One staging buffer of the output window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-- The core's scoped buffers other than the accumulator (the first region's staging buffers), each at anything. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped rest is those buffers beside the accumulator at anything, -/
theorem scoped1_split (c : Dev nD) :
    (Pipeline.scopedRest (Ix := Unit) (Name := ℕ) (U := UR sig nD τ) (Lvl := ℕ) (Val := Elt F) spec1 c : sProp 𝕄)
      ⊢ iprop(rest1 c ∗ (∃ d, owns (c : Thread nD τ) scM1_0 fullShare d)) := by
  rw [scopedRest1_eq]; unfold rest1; simp only [scM1_0, owns_whole]
  iintro ⟨H1, H2, H3, H4, H5, H6, H7, H8, HS⟩
  isplitr [HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HS

/-- and back. -/
theorem scoped1_join (c : Dev nD) :
    iprop(rest1 c ∗ (∃ d, owns (c : Thread nD τ) scM1_0 fullShare d))
      ⊢ (Pipeline.scopedRest (Ix := Unit) (Name := ℕ) (U := UR sig nD τ) (Lvl := ℕ) (Val := Elt F) spec1 c : sProp 𝕄) := by
  rw [scopedRest1_eq]; unfold rest1; simp only [scM1_0, owns_whole]
  iintro ⟨⟨H1, H2, H3, H4, H5, H6, H7, H8⟩, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-! ## The body's run, in its two cases -/

set_option maxHeartbeats 4000000 in
/-- WHERE THE CONTRACTION COORDINATE IS ZERO: on whole buffers — the three inputs at their contents, the output and
    the accumulator at anything — the body runs to the continuation holding the inputs as they were and the output
    and the accumulator with the run's pieces written (the pieces are what the run finds). -/
noncomputable def kernelRun1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i)
    (x0 : Vec F S1024x512 .f32) (x1 : Vec F S512x2048 .bf16) (x2 : Vec F S2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

set_option maxHeartbeats 4000000 in
/-- ELSEWHERE: the same with the accumulator at the contents `xs0` the point before left. -/
noncomputable def kernelRun1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i)
    (x0 : Vec F S1024x512 .f32) (x1 : Vec F S512x2048 .bf16) (x2 : Vec F S2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What the two cases leave in the output buffer and in the accumulator -/

theorem cover1_A_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) (y : S1024x2048.Idx) : ∃ pc ∈ (kernelRun1_A c i arg3 harg3 arg4 harg4 arg5 harg5 arg6 harg6 arg7 harg7 hc0 x0 x1 x2).1, y ∈ pc.1.set :=
  View.cover_of_tiledL (kernelRun1_A c i arg3 harg3 arg4 harg4 arg5 harg5 arg6 harg6 arg7 harg7 hc0 x0 x1 x2).1 S1024x2048.size (by sl_kernel_rfl) y
/-- What the reset case leaves in the output buffer: its pieces read back. -/
def out1_A_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) : Vec F S1024x2048 .f32 :=
  VO1_3.read (Elt F) (VO1_3.writes (Elt F) VO1_3.junk (kernelRun1_A c i arg3 harg3 arg4 harg4 arg5 harg5 arg6 harg6 arg7 harg7 hc0 x0 x1 x2).1)
theorem scover1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) (y : S1024x2048.Idx) : ∃ pc ∈ (kernelRun1_A c i arg3 harg3 arg4 harg4 arg5 harg5 arg6 harg6 arg7 harg7 hc0 x0 x1 x2).2.1, y ∈ pc.1.set :=
  View.cover_of_tiledL (kernelRun1_A c i arg3 harg3 arg4 harg4 arg5 harg5 arg6 harg6 arg7 harg7 hc0 x0 x1 x2).2.1 S1024x2048.size (by sl_kernel_rfl) y
/-- What the reset case leaves in the accumulator. -/
def sout1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) : Vec F S1024x2048 .f32 :=
  VS1_0.read (Elt F) (VS1_0.writes (Elt F) VS1_0.junk (kernelRun1_A c i arg3 harg3 arg4 harg4 arg5 harg5 arg6 harg6 arg7 harg7 hc0 x0 x1 x2).2.1)

theorem cover1_B_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) (y : S1024x2048.Idx) : ∃ pc ∈ (kernelRun1_B c i arg3 harg3 arg4 harg4 arg5 harg5 arg6 harg6 arg7 harg7 hc0 x0 x1 x2 xs0).1, y ∈ pc.1.set :=
  View.cover_of_tiledL (kernelRun1_B c i arg3 harg3 arg4 harg4 arg5 harg5 arg6 harg6 arg7 harg7 hc0 x0 x1 x2 xs0).1 S1024x2048.size (by sl_kernel_rfl) y
/-- What the accumulating case leaves in the output buffer. -/
def out1_B_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 x0 x1 x2 xs0).1)
theorem scover1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) (y : S1024x2048.Idx) : ∃ pc ∈ (kernelRun1_B c i arg3 harg3 arg4 harg4 arg5 harg5 arg6 harg6 arg7 harg7 hc0 x0 x1 x2 xs0).2.1, y ∈ pc.1.set :=
  View.cover_of_tiledL (kernelRun1_B c i arg3 harg3 arg4 harg4 arg5 harg5 arg6 harg6 arg7 harg7 hc0 x0 x1 x2 xs0).2.1 S1024x2048.size (by sl_kernel_rfl) y
/-- What the accumulating case leaves in the accumulator. -/
def sout1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 x0 x1 x2 xs0).2.1)

/-! ## The accumulation, point by point -/

/-- What the output buffer and the accumulator hold after the body at position `n` (a pair: output, accumulator):
    the reset case where n ≡ 0 (mod 8), else the accumulating case over what position n − 1 left in the accumulator. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩),
              sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 8 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scoped rest at anything and the generator
    register; afterwards the accumulator at what the point before left, the other scoped buffers at anything, and
    the generator register. -/
def PhiS (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest1 c ∗ owns (c : Thread nD τ) scM1_0 fullShare ((outsAt1 V c n hn).2) ∗ (∃ r, prngReg c r)) := rfl
theorem PhiS_pos (c : Dev nD) (n : ℕ) (h : n ≤ cfg1.N) (hz : n ≠ 0) :
    PhiS V c n h = iprop(rest1 c ∗ owns (c : Thread nD τ) scM1_0 fullShare ((outsAt1 V c (n - 1) (by omega)).2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
/-- The body at any point: the inputs' buffers hold their blocks; the closed form of the condition says which case
    the point is in; the invariant hands the body the accumulator at what the point before left (at anything at the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3]
  by_cases h0 : t.val % 8 = 0
  · rw [outsAt1_A V c t h0]
    unfold out1_A_3 sout1_A_0; (try dsimp only)
    have hrun := (kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)).2.2 Set.univ
    by_cases hz : t.val = 0
    · rw [PhiS_castSucc V c t, PhiS_zero V c _ _ hz]; unfold Pipeline.ΦA
      iintro ⟨⟨Hsc, Hg⟩, Ho, ⟨%d0, H0⟩, ⟨%d1, H1⟩, ⟨%d2, H2⟩, ⟨%d3, H3⟩⟩
      have hsp := scoped1_split (F := F) c
      ihave Hsp := hsp $$ Hsc
      icases Hsp with ⟨Hr, HS0⟩
      iapply (hrun _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS_castSucc V c t, PhiS_pos V c _ _ hz]
      iintro ⟨⟨Hr, HS0, Hg⟩, Ho, ⟨%d0, H0⟩, ⟨%d1, H1⟩, ⟨%d2, H2⟩, ⟨%d3, H3⟩⟩
      iapply (hrun _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · rw [outsAt1_B V c t h0]
    unfold out1_B_3 sout1_B_0; (try dsimp only)
    have hz : t.val ≠ 0 := fun hz => h0 (by rw [hz])
    have hrun := (kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2).2.2 Set.univ
    rw [PhiS_castSucc V c t, PhiS_pos V c _ _ hz]
    iintro ⟨⟨Hr, HS0, Hg⟩, Ho, ⟨%d0, H0⟩, ⟨%d1, H1⟩, ⟨%d2, H2⟩, ⟨%d3, H3⟩⟩
    iapply (hrun _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [Hr HS0 Hg]
    · isplitl [Hr]; · iexact Hr
      isplitl [HS0]
      · unfold owns; iexists _; isplitr
        swap; · iexact HS0
        ipureintro; exact View.read_writes_of_cover _ _ _ _ _ (scover1_B_0 c _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest and the generator register back: the accumulator's
    contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hne]; unfold Pipeline.ΦA
  iintro ⟨Hr, HS0, Hg⟩
  isplitl [Hr HS0]
  · have hj := scoped1_join (F := F) c
    iapply hj
    isplitl [Hr]; · iexact Hr
    iexists _; iexact HS0
  iexact Hg

end Cert.Kernel.Hand

end
-- ==== Proof.K.Run.lean ====
/-
  The whole program's run: two stretches of host operations (the bias row), then the two kernel regions.

  The core's buffer contents are followed from segment to segment: the launch memory, then each host stretch's
  operations applied, then after each region its arrays at what the region's write-backs leave and every other buffer
  as it was.  Every weakly fair execution terminates, and at the end every unscoped buffer holds the last of these
  contents: the arguments are read back unchanged through the chain, and the result array is what the second region's
  write-backs leave.
-/
import proofs.«179641_j24034636989081_1_alg».proof.Proof.K.Region0
import proofs.«179641_j24034636989081_1_alg».proof.Proof.K.Region1
import proofs.«179641_j24034636989081_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- The first region's entry contents: the launch memory after the two host stretches, read at the core's references. -/
abbrev V2 : (c : Dev nD) → (b : Ref sig .tc) → Buf (Elt F) ((c : Thread nD τ).loc b) := fun c b => Gen.V2 m c b
/-- At the first region's exit: its arrays at what its write-backs leave, every other buffer as entered. -/
def W3 (c : Dev nD) : Valuation τ sig (Elt F) :=
  Pipeline.withArrays spec0 c (Gen.V2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = Gen.V2 m c (Proc.devRef .tc b) := by
  unfold W3; exact Pipeline.withArrays_of_ne spec0 c _ _ b hb
/-- The same read at the core's references: the second region's entry contents. -/
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one, and a region only reads one (through an input
    window) or passes it by -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = Gen.V2 m c (Proc.devRef .tc main_arg0) := W3_of_ne m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = Gen.V2 m c (Proc.devRef .tc main_arg1) := (W3_arr m c 0).trans (((dat0 (V2 m) c).arrAt_in 0 rfl _).trans (A_eq0 (V2 m) c 0))
    _ = Gen.V1 m c (Proc.devRef .tc main_arg1) := Gen.V2_of m c main_arg1 (by decide)
    _ = Gen.V0 m c (Proc.devRef .tc main_arg1) := Gen.V1_of m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = Gen.V2 m c (Proc.devRef .tc main_arg2) := (W3_arr m c 1).trans (((dat0 (V2 m) c).arrAt_in 1 rfl _).trans (A_eq0 (V2 m) c 1))
    _ = Gen.V1 m c (Proc.devRef .tc main_arg2) := Gen.V2_of m c main_arg2 (by decide)
    _ = Gen.V0 m c (Proc.devRef .tc main_arg2) := Gen.V1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = Gen.V2 m c (Proc.devRef .tc main_arg3) := W3_of_ne m c main_arg3 (by decide)
    _ = Gen.V1 m c (Proc.devRef .tc main_arg3) := Gen.V2_of m c main_arg3 (by decide)
    _ = Gen.V0 m c (Proc.devRef .tc main_arg3) := Gen.V1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = Gen.V2 m c (Proc.devRef .tc main_arg4) := W3_of_ne m c main_arg4 (by decide)
    _ = Gen.V1 m c (Proc.devRef .tc main_arg4) := Gen.V2_of m c main_arg4 (by decide)
    _ = Gen.V0 m c (Proc.devRef .tc main_arg4) := Gen.V1_of m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = Gen.V2 m c (Proc.devRef .tc main_arg5) := (W3_arr m c 2).trans (((dat0 (V2 m) c).arrAt_in 2 rfl _).trans (A_eq0 (V2 m) c 2))
    _ = Gen.V1 m c (Proc.devRef .tc main_arg5) := Gen.V2_of m c main_arg5 (by decide)
    _ = Gen.V0 m c (Proc.devRef .tc main_arg5) := Gen.V1_of m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = Gen.V2 m c (Proc.devRef .tc main_arg6) := W3_of_ne m c main_arg6 (by decide)
    _ = Gen.V1 m c (Proc.devRef .tc main_arg6) := Gen.V2_of m c main_arg6 (by decide)
    _ = Gen.V0 m c (Proc.devRef .tc main_arg6) := Gen.V1_of m c main_arg6 (by decide)
    _ = m ((c : Thread nD τ).loc main_arg6) := rfl

/-- The result array at the end is what the second region's write-backs leave. -/
theorem W4_main_v4 (c : Dev nD) : W4 m c (Proc.devRef .tc main_v4) = (dat1 (V3 m) c).arrAt 3 cfg1.N := W4_arr m c 3

/-- The weight matrix the second region reads is what the first region's write-backs leave. -/
theorem V3_main_v3 (c : Dev nD) : V3 m c main_v3 = (dat0 (V2 m) c).arrAt 3 cfg0.N := W3_arr m c 3
/-- The input and the bias row it reads are as the host stretches left them. -/
theorem V3_main_arg0 (c : Dev nD) : V3 m c main_arg0 = m ((c : Thread nD τ).loc main_arg0) :=
  (W3_of_ne m c main_arg0 (by decide)).trans ((Gen.V2_of m c main_arg0 (by decide)).trans ((Gen.V1_of m c main_arg0 (by decide)).trans rfl))
theorem V3_main_v2 (c : Dev nD) : V3 m c main_v2 = Gen.V2 m c (Proc.devRef .tc main_v2) := W3_of_ne m c main_v2 (by decide)
theorem V2_main_arg1 (c : Dev nD) : V2 m c main_arg1 = m ((c : Thread nD τ).loc main_arg1) :=
  (Gen.V2_of m c main_arg1 (by decide)).trans ((Gen.V1_of m c main_arg1 (by decide)).trans rfl)
theorem V2_main_arg2 (c : Dev nD) : V2 m c main_arg2 = m ((c : Thread nD τ).loc main_arg2) :=
  (Gen.V2_of m c main_arg2 (by decide)).trans ((Gen.V1_of m c main_arg2 (by decide)).trans rfl)
theorem V2_main_arg5 (c : Dev nD) : V2 m c main_arg5 = m ((c : Thread nD τ).loc main_arg5) :=
  (Gen.V2_of m c main_arg5 (by decide)).trans ((Gen.V1_of m c main_arg5 (by decide)).trans rfl)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `Gen.V2`, left at `W3`. Its arrays
    are split out of the unscoped buffers and put back at their exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (Gen.V2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at their exit contents; the generator register goes into the
    region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h1 := hin1 (V3 m) c
    iintro ⟨Hp, -, Hr⟩
    iapply h1
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    have h1 := hout1 (V3 m) c
    iintro H
    ihave H' := h1 $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .region (reg0 m),
    .region (reg1 m) ]

set_option backward.isDefEq.respectTransparency.types false in
/-- THE RUN: from any memory with zero counters every weakly fair execution of the program terminates, and at the end
    every unscoped buffer of every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          Prog.lift (.customCall (Pipeline.entry 1) ()) ] from rfl]
      exact .rfl)
    (fun _ => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun _ => ⟨.rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the arguments end unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

/-- THE RESULT beside the frame: the result array ends at what the second region's write-backs leave. -/
theorem run_value (ρ : Dev nD → PrngReg) : θ_run defs (onTc (τ := τ) (main (F := F))) ⟨m, fun _ => 0, ρ⟩ (fun r => ∀ c : Dev nD,
      r.2.mem ((c.tc : Thread nD τ).loc main_v4) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v4 (by decide))).trans (W4_main_v4 m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.Kernel.Hand

end
-- ==== Proof.KI.Region0.lean ====
/-
  The first kernel region: the weight matrix, block by block.

  The grid has 8 × 4 points; at each the three 512×1024 input blocks (mu, rho, eps at the same block position) are
  loaded whole, the body computes mu + softplus(rho) · eps entrywise, narrows it, and stores it whole into the output
  block.  Nothing is carried from point to point, so what the output's staging buffer holds after a point is one
  function of the three input blocks at that point.  The region is stated at a parameter `V`: what the core's
  buffers hold when the region is entered.
-/
import proofs.«179641_j24034636989081_1_alg».proof.Proof.Gen.KernelIdeal.Launch
import proofs.«179641_j24034636989081_1_alg».proof.Proof.Gen.KernelIdeal.Skeleton
import proofs.«179641_j24034636989081_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (it is fetched at every point, and the body
    leaves it in place): one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 512×1024 block. -/
abbrev r0_0 : Rect S512x1024 := Rect.unit (s := S512x1024) ![0, 0] S512x1024.size inb_S512x1024_S512x1024_0_0

/-- The output block after the body, from the three input blocks: its single whole-block store. -/
def out0_3 (x0 x1 x2 : Vec F S512x1024 .f32) : Vec F S512x1024 .bf16 :=
  View.canon [⟨r0_0, k0_pay1 (View.ld x0 r0_0) (View.ld x1 r0_0) (View.ld x2 r0_0)⟩]

/-- That store covers the block. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 2000000 in
/-- The body on whole staging buffers: the three inputs are read and left as they were, the output ends at
    `out0_3` of them whatever it held. -/
theorem sound_kernel0 (c : Dev nD) (E : Set ℕ) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (x0 x1 x2 : Vec F S512x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__build_w_kernel i arg2 harg2 arg3 harg3 arg4 harg4 arg5 harg5) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at a point each input's
    buffer at its block and the output's at `out0_3` of the three blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at a point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second kernel region: the matrix product, accumulated over the contracted axis.

  The grid has 8 × 2 × 8 points (row block i, column block j, contraction block k, k fastest).  An accumulator the
  size of one output block lives in scratch memory across points: where k = 0 it is first reset to zero; at every
  point the product of the 1024×512 block of x and the 512×2048 block of the weights is added to it; and the output
  block is overwritten with the accumulator plus the bias block (broadcast along rows).  The output block is written
  back where k = 7.  So what the scratch and the output buffer hold after a point is a recursion on the point:
  a fresh product where k = 0, the previous accumulator plus a product elsewhere.
  The region is stated at a parameter `V`: what the core's buffers hold when the region is entered.
-/
import proofs.«179641_j24034636989081_1_alg».proof.Proof.Gen.KernelIdeal.Launch
import proofs.«179641_j24034636989081_1_alg».proof.Proof.Gen.KernelIdeal.Skeleton
import proofs.«179641_j24034636989081_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not fetched
    its block index has not moved, and the body leaves the block in place): one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The reset condition -/

/-- The body's one branch condition, from the grid coordinates: "the contraction coordinate is zero". -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- No window is idle at any point. -/
theorem liveAt1_3 : ∀ t : Fin cfg1.N, cfg1.idle 3 (grid1.coords t) = false := by decide +kernel

/-! ## The buffers the body is called with -/

/-- One staging buffer of the output window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-- The core's scoped buffers other than the accumulator (the first region's staging buffers), each at anything. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped rest is those buffers beside the accumulator at anything, -/
theorem scoped1_split (c : Dev nD) :
    (Pipeline.scopedRest (Ix := Unit) (Name := ℕ) (U := UR sig nD τ) (Lvl := ℕ) (Val := Elt F) spec1 c : sProp 𝕄)
      ⊢ iprop(rest1 c ∗ (∃ d, owns (c : Thread nD τ) scM1_0 fullShare d)) := by
  rw [scopedRest1_eq]; unfold rest1; simp only [scM1_0, owns_whole]
  iintro ⟨H1, H2, H3, H4, H5, H6, H7, H8, HS⟩
  isplitr [HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HS

/-- and back. -/
theorem scoped1_join (c : Dev nD) :
    iprop(rest1 c ∗ (∃ d, owns (c : Thread nD τ) scM1_0 fullShare d))
      ⊢ (Pipeline.scopedRest (Ix := Unit) (Name := ℕ) (U := UR sig nD τ) (Lvl := ℕ) (Val := Elt F) spec1 c : sProp 𝕄) := by
  rw [scopedRest1_eq]; unfold rest1; simp only [scM1_0, owns_whole]
  iintro ⟨⟨H1, H2, H3, H4, H5, H6, H7, H8⟩, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-! ## The body's run, in its two cases -/

set_option maxHeartbeats 4000000 in
/-- WHERE THE CONTRACTION COORDINATE IS ZERO: on whole buffers — the three inputs at their contents, the output and
    the accumulator at anything — the body runs to the continuation holding the inputs as they were and the output
    and the accumulator with the run's pieces written (the pieces are what the run finds). -/
noncomputable def kernelRun1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i)
    (x0 : Vec F S1024x512 .f32) (x1 : Vec F S512x2048 .bf16) (x2 : Vec F S2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

set_option maxHeartbeats 4000000 in
/-- ELSEWHERE: the same with the accumulator at the contents `xs0` the point before left. -/
noncomputable def kernelRun1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i)
    (x0 : Vec F S1024x512 .f32) (x1 : Vec F S512x2048 .bf16) (x2 : Vec F S2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What the two cases leave in the output buffer and in the accumulator -/

theorem cover1_A_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) (y : S1024x2048.Idx) : ∃ pc ∈ (kernelRun1_A c i arg3 harg3 arg4 harg4 arg5 harg5 arg6 harg6 arg7 harg7 hc0 x0 x1 x2).1, y ∈ pc.1.set :=
  View.cover_of_tiledL (kernelRun1_A c i arg3 harg3 arg4 harg4 arg5 harg5 arg6 harg6 arg7 harg7 hc0 x0 x1 x2).1 S1024x2048.size (by sl_kernel_rfl) y
/-- What the reset case leaves in the output buffer: its pieces read back. -/
def out1_A_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) : Vec F S1024x2048 .f32 :=
  VO1_3.read (Elt F) (VO1_3.writes (Elt F) VO1_3.junk (kernelRun1_A c i arg3 harg3 arg4 harg4 arg5 harg5 arg6 harg6 arg7 harg7 hc0 x0 x1 x2).1)
theorem scover1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) (y : S1024x2048.Idx) : ∃ pc ∈ (kernelRun1_A c i arg3 harg3 arg4 harg4 arg5 harg5 arg6 harg6 arg7 harg7 hc0 x0 x1 x2).2.1, y ∈ pc.1.set :=
  View.cover_of_tiledL (kernelRun1_A c i arg3 harg3 arg4 harg4 arg5 harg5 arg6 harg6 arg7 harg7 hc0 x0 x1 x2).2.1 S1024x2048.size (by sl_kernel_rfl) y
/-- What the reset case leaves in the accumulator. -/
def sout1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) : Vec F S1024x2048 .f32 :=
  VS1_0.read (Elt F) (VS1_0.writes (Elt F) VS1_0.junk (kernelRun1_A c i arg3 harg3 arg4 harg4 arg5 harg5 arg6 harg6 arg7 harg7 hc0 x0 x1 x2).2.1)

theorem cover1_B_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) (y : S1024x2048.Idx) : ∃ pc ∈ (kernelRun1_B c i arg3 harg3 arg4 harg4 arg5 harg5 arg6 harg6 arg7 harg7 hc0 x0 x1 x2 xs0).1, y ∈ pc.1.set :=
  View.cover_of_tiledL (kernelRun1_B c i arg3 harg3 arg4 harg4 arg5 harg5 arg6 harg6 arg7 harg7 hc0 x0 x1 x2 xs0).1 S1024x2048.size (by sl_kernel_rfl) y
/-- What the accumulating case leaves in the output buffer. -/
def out1_B_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 x0 x1 x2 xs0).1)
theorem scover1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) (y : S1024x2048.Idx) : ∃ pc ∈ (kernelRun1_B c i arg3 harg3 arg4 harg4 arg5 harg5 arg6 harg6 arg7 harg7 hc0 x0 x1 x2 xs0).2.1, y ∈ pc.1.set :=
  View.cover_of_tiledL (kernelRun1_B c i arg3 harg3 arg4 harg4 arg5 harg5 arg6 harg6 arg7 harg7 hc0 x0 x1 x2 xs0).2.1 S1024x2048.size (by sl_kernel_rfl) y
/-- What the accumulating case leaves in the accumulator. -/
def sout1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 x0 x1 x2 xs0).2.1)

/-! ## The accumulation, point by point -/

/-- What the output buffer and the accumulator hold after the body at position `n` (a pair: output, accumulator):
    the reset case where n ≡ 0 (mod 8), else the accumulating case over what position n − 1 left in the accumulator. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩),
              sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 8 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scoped rest at anything and the generator
    register; afterwards the accumulator at what the point before left, the other scoped buffers at anything, and
    the generator register. -/
def PhiS (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest1 c ∗ owns (c : Thread nD τ) scM1_0 fullShare ((outsAt1 V c n hn).2) ∗ (∃ r, prngReg c r)) := rfl
theorem PhiS_pos (c : Dev nD) (n : ℕ) (h : n ≤ cfg1.N) (hz : n ≠ 0) :
    PhiS V c n h = iprop(rest1 c ∗ owns (c : Thread nD τ) scM1_0 fullShare ((outsAt1 V c (n - 1) (by omega)).2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
/-- The body at any point: the inputs' buffers hold their blocks; the closed form of the condition says which case
    the point is in; the invariant hands the body the accumulator at what the point before left (at anything at the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3]
  by_cases h0 : t.val % 8 = 0
  · rw [outsAt1_A V c t h0]
    unfold out1_A_3 sout1_A_0; (try dsimp only)
    have hrun := (kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)).2.2 Set.univ
    by_cases hz : t.val = 0
    · rw [PhiS_castSucc V c t, PhiS_zero V c _ _ hz]; unfold Pipeline.ΦA
      iintro ⟨⟨Hsc, Hg⟩, Ho, ⟨%d0, H0⟩, ⟨%d1, H1⟩, ⟨%d2, H2⟩, ⟨%d3, H3⟩⟩
      have hsp := scoped1_split (F := F) c
      ihave Hsp := hsp $$ Hsc
      icases Hsp with ⟨Hr, HS0⟩
      iapply (hrun _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS_castSucc V c t, PhiS_pos V c _ _ hz]
      iintro ⟨⟨Hr, HS0, Hg⟩, Ho, ⟨%d0, H0⟩, ⟨%d1, H1⟩, ⟨%d2, H2⟩, ⟨%d3, H3⟩⟩
      iapply (hrun _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · rw [outsAt1_B V c t h0]
    unfold out1_B_3 sout1_B_0; (try dsimp only)
    have hz : t.val ≠ 0 := fun hz => h0 (by rw [hz])
    have hrun := (kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2).2.2 Set.univ
    rw [PhiS_castSucc V c t, PhiS_pos V c _ _ hz]
    iintro ⟨⟨Hr, HS0, Hg⟩, Ho, ⟨%d0, H0⟩, ⟨%d1, H1⟩, ⟨%d2, H2⟩, ⟨%d3, H3⟩⟩
    iapply (hrun _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [Hr HS0 Hg]
    · isplitl [Hr]; · iexact Hr
      isplitl [HS0]
      · unfold owns; iexists _; isplitr
        swap; · iexact HS0
        ipureintro; exact View.read_writes_of_cover _ _ _ _ _ (scover1_B_0 c _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest and the generator register back: the accumulator's
    contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hne]; unfold Pipeline.ΦA
  iintro ⟨Hr, HS0, Hg⟩
  isplitl [Hr HS0]
  · have hj := scoped1_join (F := F) c
    iapply hj
    isplitl [Hr]; · iexact Hr
    iexists _; iexact HS0
  iexact Hg

end Cert.KernelIdeal.Hand

end
-- ==== Proof.KI.Run.lean ====
/-
  The whole program's run: two stretches of host operations (the bias row), then the two kernel regions.

  The core's buffer contents are followed from segment to segment: the launch memory, then each host stretch's
  operations applied, then after each region its arrays at what the region's write-backs leave and every other buffer
  as it was.  Every weakly fair execution terminates, and at the end every unscoped buffer holds the last of these
  contents: the arguments are read back unchanged through the chain, and the result array is what the second region's
  write-backs leave.
-/
import proofs.«179641_j24034636989081_1_alg».proof.Proof.KI.Region0
import proofs.«179641_j24034636989081_1_alg».proof.Proof.KI.Region1
import proofs.«179641_j24034636989081_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- The first region's entry contents: the launch memory after the two host stretches, read at the core's references. -/
abbrev V2 : (c : Dev nD) → (b : Ref sig .tc) → Buf (Elt F) ((c : Thread nD τ).loc b) := fun c b => Gen.V2 m c b
/-- At the first region's exit: its arrays at what its write-backs leave, every other buffer as entered. -/
def W3 (c : Dev nD) : Valuation τ sig (Elt F) :=
  Pipeline.withArrays spec0 c (Gen.V2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = Gen.V2 m c (Proc.devRef .tc b) := by
  unfold W3; exact Pipeline.withArrays_of_ne spec0 c _ _ b hb
/-- The same read at the core's references: the second region's entry contents. -/
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one, and a region only reads one (through an input
    window) or passes it by -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = Gen.V2 m c (Proc.devRef .tc main_arg0) := W3_of_ne m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = Gen.V2 m c (Proc.devRef .tc main_arg1) := (W3_arr m c 0).trans (((dat0 (V2 m) c).arrAt_in 0 rfl _).trans (A_eq0 (V2 m) c 0))
    _ = Gen.V1 m c (Proc.devRef .tc main_arg1) := Gen.V2_of m c main_arg1 (by decide)
    _ = Gen.V0 m c (Proc.devRef .tc main_arg1) := Gen.V1_of m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = Gen.V2 m c (Proc.devRef .tc main_arg2) := (W3_arr m c 1).trans (((dat0 (V2 m) c).arrAt_in 1 rfl _).trans (A_eq0 (V2 m) c 1))
    _ = Gen.V1 m c (Proc.devRef .tc main_arg2) := Gen.V2_of m c main_arg2 (by decide)
    _ = Gen.V0 m c (Proc.devRef .tc main_arg2) := Gen.V1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = Gen.V2 m c (Proc.devRef .tc main_arg3) := W3_of_ne m c main_arg3 (by decide)
    _ = Gen.V1 m c (Proc.devRef .tc main_arg3) := Gen.V2_of m c main_arg3 (by decide)
    _ = Gen.V0 m c (Proc.devRef .tc main_arg3) := Gen.V1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = Gen.V2 m c (Proc.devRef .tc main_arg4) := W3_of_ne m c main_arg4 (by decide)
    _ = Gen.V1 m c (Proc.devRef .tc main_arg4) := Gen.V2_of m c main_arg4 (by decide)
    _ = Gen.V0 m c (Proc.devRef .tc main_arg4) := Gen.V1_of m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = Gen.V2 m c (Proc.devRef .tc main_arg5) := (W3_arr m c 2).trans (((dat0 (V2 m) c).arrAt_in 2 rfl _).trans (A_eq0 (V2 m) c 2))
    _ = Gen.V1 m c (Proc.devRef .tc main_arg5) := Gen.V2_of m c main_arg5 (by decide)
    _ = Gen.V0 m c (Proc.devRef .tc main_arg5) := Gen.V1_of m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = Gen.V2 m c (Proc.devRef .tc main_arg6) := W3_of_ne m c main_arg6 (by decide)
    _ = Gen.V1 m c (Proc.devRef .tc main_arg6) := Gen.V2_of m c main_arg6 (by decide)
    _ = Gen.V0 m c (Proc.devRef .tc main_arg6) := Gen.V1_of m c main_arg6 (by decide)
    _ = m ((c : Thread nD τ).loc main_arg6) := rfl

/-- The result array at the end is what the second region's write-backs leave. -/
theorem W4_main_v4 (c : Dev nD) : W4 m c (Proc.devRef .tc main_v4) = (dat1 (V3 m) c).arrAt 3 cfg1.N := W4_arr m c 3

/-- The weight matrix the second region reads is what the first region's write-backs leave. -/
theorem V3_main_v3 (c : Dev nD) : V3 m c main_v3 = (dat0 (V2 m) c).arrAt 3 cfg0.N := W3_arr m c 3
/-- The input and the bias row it reads are as the host stretches left them. -/
theorem V3_main_arg0 (c : Dev nD) : V3 m c main_arg0 = m ((c : Thread nD τ).loc main_arg0) :=
  (W3_of_ne m c main_arg0 (by decide)).trans ((Gen.V2_of m c main_arg0 (by decide)).trans ((Gen.V1_of m c main_arg0 (by decide)).trans rfl))
theorem V3_main_v2 (c : Dev nD) : V3 m c main_v2 = Gen.V2 m c (Proc.devRef .tc main_v2) := W3_of_ne m c main_v2 (by decide)
theorem V2_main_arg1 (c : Dev nD) : V2 m c main_arg1 = m ((c : Thread nD τ).loc main_arg1) :=
  (Gen.V2_of m c main_arg1 (by decide)).trans ((Gen.V1_of m c main_arg1 (by decide)).trans rfl)
theorem V2_main_arg2 (c : Dev nD) : V2 m c main_arg2 = m ((c : Thread nD τ).loc main_arg2) :=
  (Gen.V2_of m c main_arg2 (by decide)).trans ((Gen.V1_of m c main_arg2 (by decide)).trans rfl)
theorem V2_main_arg5 (c : Dev nD) : V2 m c main_arg5 = m ((c : Thread nD τ).loc main_arg5) :=
  (Gen.V2_of m c main_arg5 (by decide)).trans ((Gen.V1_of m c main_arg5 (by decide)).trans rfl)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `Gen.V2`, left at `W3`. Its arrays
    are split out of the unscoped buffers and put back at their exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (Gen.V2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at their exit contents; the generator register goes into the
    region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h1 := hin1 (V3 m) c
    iintro ⟨Hp, -, Hr⟩
    iapply h1
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    have h1 := hout1 (V3 m) c
    iintro H
    ihave H' := h1 $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .region (reg0 m),
    .region (reg1 m) ]

set_option backward.isDefEq.respectTransparency.types false in
/-- THE RUN: from any memory with zero counters every weakly fair execution of the program terminates, and at the end
    every unscoped buffer of every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          Prog.lift (.customCall (Pipeline.entry 1) ()) ] from rfl]
      exact .rfl)
    (fun _ => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun _ => ⟨.rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the arguments end unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

/-- THE RESULT beside the frame: the result array ends at what the second region's write-backs leave. -/
theorem run_value (ρ : Dev nD → PrngReg) : θ_run defs (onTc (τ := τ) (main (F := F))) ⟨m, fun _ => 0, ρ⟩ (fun r => ∀ c : Dev nD,
      r.2.mem ((c.tc : Thread nD τ).loc main_v4) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v4 (by decide))).trans (W4_main_v4 m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.KernelIdeal.Hand

end
-- ==== Proof.Spec.lean ====
/-
  The function both programs compute, over the extended reals.

  A weight matrix is built entrywise from three 4096×4096 arrays, w[k,n] = mu[k,n] + softplus(rho[k,n]) · eps[k,n],
  a bias row the same way from three vectors, b[n] = bmu[n] + softplus(brho[n]) · beps[n], and the result is the
  affine map out[r,s] = (∑ₖ x[r,k] · w[k,s]) + b[s] of the 8192×4096 input.  Here softplus is written in its
  overflow-safe form max(r, 0) + log(1 + exp(−|r|)), with |r| = max(r, −r); this is the form in which both programs
  evaluate it once the comparison of a number with itself (never true on the extended reals) has been decided.
-/
import Idealize.ShloMosaic.PureOps.Ideal
import Idealize.ShloMosaic.Lib.ValueIdx

noncomputable section

open scoped BigOperators

namespace Cert.Spec

open Idealize.ShloMosaic Idealize.ShloMosaic.ValueIdx

/-- The index sets of the input matrix, of a 4096×4096 parameter matrix and of a 4096-vector. -/
abbrev SX : Shape := ⟨2, ![8192, 4096]⟩
abbrev SW : Shape := ⟨2, ![4096, 4096]⟩
abbrev SB : Shape := ⟨1, ![4096]⟩

/-- softplus in its overflow-safe form: max(r, 0) + log(1 + exp(−|r|)). -/
def sp (r : EReal) : EReal := max r 0 + Ideal.log1p (Ideal.exp (-(max r (-r))))

/-- One entry of the weight matrix: mu + softplus(rho) · eps. -/
def wt (mu rho eps : SW.Idx → EReal) (k n : Fin 4096) : EReal :=
  mu (ix2 k n) + sp (rho (ix2 k n)) * eps (ix2 k n)

/-- One entry of the bias row: bmu + softplus(brho) · beps. -/
def bias (bmu brho beps : SB.Idx → EReal) (n : Fin 4096) : EReal :=
  bmu (ix1 n) + sp (brho (ix1 n)) * beps (ix1 n)

/-- One entry of the result: row r of x against column s of the weight matrix, plus the bias at s. -/
def Gat (x : SX.Idx → EReal) (mu rho : SW.Idx → EReal) (bmu brho : SB.Idx → EReal) (eps : SW.Idx → EReal)
    (beps : SB.Idx → EReal) (r : Fin 8192) (s : Fin 4096) : EReal :=
  (∑ k : Fin 4096, x (ix2 r k) * wt mu rho eps k s) + bias bmu brho beps s

/-- The whole result array, the arguments in the programs' order (x, mu, rho, bmu, brho, eps, beps). -/
def G (x : SX.Idx → EReal) (mu rho : SW.Idx → EReal) (bmu brho : SB.Idx → EReal) (eps : SW.Idx → EReal)
    (beps : SB.Idx → EReal) : SX.Idx → EReal :=
  fun i => Gat x mu rho bmu brho eps beps (i 0) (i 1)

/-- The affine map alone, of a given weight matrix and bias row: out[r,s] = (∑ₖ x[r,k] · w[k,s]) + b[s]. -/
def mm (x : SX.Idx → EReal) (w : SW.Idx → EReal) (b : SB.Idx → EReal) (r : Fin 8192) (s : Fin 4096) : EReal :=
  (∑ k : Fin 4096, x (ix2 r k) * w (ix2 k s)) + b (ix1 s)

/-- The weight matrix and the bias row as arrays. -/
def W (mu rho eps : SW.Idx → EReal) : SW.Idx → EReal := fun i => wt mu rho eps (i 0) (i 1)
def B (bmu brho beps : SB.Idx → EReal) : SB.Idx → EReal := fun i => bias bmu brho beps (i 0)

/-- The result is the affine map of the built weight matrix and bias row. -/
theorem Gat_eq_mm (x : SX.Idx → EReal) (mu rho : SW.Idx → EReal) (bmu brho : SB.Idx → EReal) (eps : SW.Idx → EReal)
    (beps : SB.Idx → EReal) (r : Fin 8192) (s : Fin 4096) :
    Gat x mu rho bmu brho eps beps r s = mm x (W mu rho eps) (B bmu brho beps) r s := rfl

theorem G_ix2 (x : SX.Idx → EReal) (mu rho : SW.Idx → EReal) (bmu brho : SB.Idx → EReal) (eps : SW.Idx → EReal)
    (beps : SB.Idx → EReal) (r : Fin 8192) (s : Fin 4096) :
    G x mu rho bmu brho eps beps (ix2 r s) = Gat x mu rho bmu brho eps beps r s := rfl

end Cert.Spec

end
-- ==== Proof.KI.Value0.lean ====
/-
  The value of the first kernel region over the extended reals: the weight matrix.

  At each of the 8 × 4 grid points the body stores, into the output's 512×1024 block, the entrywise value
  mu + softplus(rho) · eps of the three input blocks at the same block position.  The body writes softplus as the guarded
  form  select (t ≠ t) (y + 0) (max y 0 + log1p (exp (0 − |t|)))  with t = y − 0; over the extended reals no number
  differs from itself, y − 0 = y, 0 − a = −a and |t| = max t (−t), so the stored entry is mu + sp(rho) · eps with sp the
  specification's softplus; the final narrowing changes nothing on extended reals.  All four windows move with the grid
  point in the same way (block (i, j) at point (i, j)), so what a point writes back is its block of the one whole
  matrix W = mu + sp(rho) · eps; and the blocks tile the matrix (row r, column s lies in block (r / 512, s / 1024)), so
  after the last write-back the output array is W.
-/
import proofs.«179641_j24034636989081_1_alg».proof.Proof.KI.Region0
import proofs.«179641_j24034636989081_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at one entry -/

/-- On the extended reals no number differs from itself: the ordered-and-unequal comparison of `a` with `a` is the
    zero bit. -/
theorem cmp_one_self (a : EReal) : Ideal.cmp .one a a = 0#1 := by
  simp [Ideal.cmp]

/-- The stored block at an entry: mu + sp(rho) · eps of the three loaded blocks there.  Every operation of the body is
    entrywise; the guard fails, the zeros drop out, and the narrowing is the identity. -/
theorem pay0_at (x0 x1 x2 : Vec Ideal S512x1024 .f32) (j : S512x1024.Idx) :
    k0_pay1 (F := Ideal) x0 x1 x2 j = x0 j + Cert.Spec.sp (x1 j) * x2 j := by
  have h : k0_pay1 (F := Ideal) x0 x1 x2 j
      = x0 j + Scalar.select (Ideal.cmp .one (x1 j - Ideal.ofBits .f32 0x00000000#32) (x1 j - Ideal.ofBits .f32 0x00000000#32))
          (x1 j + Ideal.ofBits .f32 0x00000000#32)
          (max (x1 j) (Ideal.ofBits .f32 0x00000000#32)
            + Ideal.log1p (Ideal.exp (Ideal.ofBits .f32 0x00000000#32
                - max (x1 j - Ideal.ofBits .f32 0x00000000#32) (-(x1 j - Ideal.ofBits .f32 0x00000000#32))))) * x2 j := rfl
  rw [h, cmp_one_self, select_zero, Ideal.ofBits_zero_f32]
  simp only [sub_zero, zero_sub, Cert.Spec.sp]

/-- The weight matrix at an index: mu + sp(rho) · eps there. -/
theorem W_apply (mu rho eps : S4096x4096.Idx → EReal) (i : S4096x4096.Idx) :
    Cert.Spec.W mu rho eps i = mu i + Cert.Spec.sp (rho i) * eps i := by
  obtain ⟨r, s, rfl⟩ : ∃ (r : Fin 4096) (s : Fin 4096), i = ix2 r s := ⟨i 0, i 1, eq_ix2 i⟩
  rfl

/-! ## The grid's index maps -/

theorem hz0 : (![0, 0] : Fin 2 → Nat) = fun _ => 0 := funext fun a => by fin_cases a <;> rfl

/-- At every grid point the three input windows sit at the output window's block position, on both axes. -/
theorem idx_facts0 : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2) :=
  (by decide +kernel : ∀ t : Fin grid0.N, _)

/-- Every block position of the 8 × 4 tiling is some grid point's. -/
theorem idx_onto0 : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-! ## From blocks to the array -/

variable (V : (c : Dev nD) → (b : Ref sig .tc) → Buf (Elt Ideal) ((c : Thread nD τ).loc b))

/-- The three parameter arrays as the region finds them, and the weight matrix of them. -/
abbrev mu0 (c : Dev nD) : S4096x4096.Idx → EReal := V c main_arg1
abbrev rho0 (c : Dev nD) : S4096x4096.Idx → EReal := V c main_arg2
abbrev eps0 (c : Dev nD) : S4096x4096.Idx → EReal := V c main_arg5
abbrev W0 (c : Dev nD) : S4096x4096.Idx → EReal := Cert.Spec.W (mu0 V c) (rho0 V c) (eps0 V c)

/-- What point `t` writes back is block `t` of the weight matrix: each input block is read where the output's block
    sits. -/
theorem flushed0_eq (c : Dev nD) (t : Fin cfg0.N) :
    (dat0 (F := Ideal) V c).flushed 3 t = ((cfg0.win 3).blk t).view.read (Elt Ideal) (W0 V c) := by
  show (cfg0.win 3).cut (grid0.coords t) ((dat0 (F := Ideal) V c).after 3 t) = _
  rw [after0_3]
  unfold out0_3
  rw [View.canon_unit_zero hz0]
  simp only [View.ld_unit_zero (S := S512x1024) hz0]
  obtain ⟨e0, e1, e2, e3, e4, e5⟩ := idx_facts0 t
  funext j
  show k0_pay1 (F := Ideal) (iblk0 V c 0 t) (iblk0 V c 1 t) (iblk0 V c 2 t) j = W0 V c (((cfg0.win 3).blk t).view.emb j)
  refine (pay0_at _ _ _ j).trans ?_
  refine ((W_apply _ _ _ _).trans ?_).symm
  show mu0 V c (((cfg0.win 3).blk t).view.emb j) + Cert.Spec.sp (rho0 V c (((cfg0.win 3).blk t).view.emb j)) * eps0 V c (((cfg0.win 3).blk t).view.emb j)
    = mu0 V c (((cfg0.win 0).blk t).view.emb j) + Cert.Spec.sp (rho0 V c (((cfg0.win 1).blk t).view.emb j)) * eps0 V c (((cfg0.win 2).blk t).view.emb j)
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; rw [e0]
    | ⟨1, _⟩ => show win0_0.index t (1 : Fin 2) * 1024 + 1 * (j 1).val = win0_3.index t (1 : Fin 2) * 1024 + 1 * (j 1).val; rw [e1]
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; rw [e2]
    | ⟨1, _⟩ => show win0_1.index t (1 : Fin 2) * 1024 + 1 * (j 1).val = win0_3.index t (1 : Fin 2) * 1024 + 1 * (j 1).val; rw [e3]
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; rw [e4]
    | ⟨1, _⟩ => show win0_2.index t (1 : Fin 2) * 1024 + 1 * (j 1).val = win0_3.index t (1 : Fin 2) * 1024 + 1 * (j 1).val; rw [e5]
  rw [h0, h1, h2]

/-- An index of the array is in point `t`'s output block iff each coordinate is in the block's range on its axis. -/
theorem mem_blk0 (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- Every index of the weight matrix is in some point's output block: row r, column s is in block (r / 512, s / 1024). -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto0 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After all 32 write-backs the output array is the whole weight matrix. -/
theorem final0_3 (c : Dev nD) :
    (dat0 (F := Ideal) V c).arrAt 3 cfg0.N = Cert.Spec.W (V c main_arg1) (V c main_arg2) (V c main_arg5) :=
  (dat0 (F := Ideal) V c).arrAt_eq_of_cover 3 (W0 V c) (fun t _ => flushed0_eq V c t) cover0

end Cert.KernelIdeal.Hand

end
-- ==== Proof.KI.Region1Value.lean ====
/-
  What the two cases of the second region's body leave, as pure terms of the blocks: the accumulator is the body's
  accumulation term of the x block, the previous accumulator (zero where the contraction coordinate is zero) and the
  weight block; the output block is the body's bias term of the new accumulator and the bias block.
-/
import proofs.«179641_j24034636989081_1_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; match a with | ⟨0, _⟩ => rfl | ⟨1, _⟩ => rfl
theorem hz1 : (![0] : Fin 1 → ℕ) = fun _ => 0 := by funext a; match a with | ⟨0, _⟩ => rfl

/-- A load through the whole-block rectangle of what a whole-block store left LAST reads that store's payload,
    whatever was stored before it. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The reset case leaves in the accumulator the accumulation term over a zero accumulator, -/
theorem sout1_A_0_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) : sout1_A_0 c i arg3 harg3 arg4 harg4 arg5 harg5 arg6 harg6 arg7 harg7 hc0 x0 x1 x2 = k1_pay2 x0 (k1_pay1 (F := F)) x1 := by
  unfold sout1_A_0
  rw [View.read_writes_eq_canon _ _ _ (scover1_A_0 c i arg3 harg3 arg4 harg4 arg5 harg5 arg6 harg6 arg7 harg7 hc0 x0 x1 x2)]
  unfold kernelRun1_A
  dsimp only
  sl_unfold_words
  rw [View.canon_cons_unit_zero (S := S1024x2048) hz2, View.readCov_unit_zero (S := S1024x2048) _ hz2]
  simp only [View.readAt_eq_ld, harg3.read_unread, harg4.read_unread, View.ld_unit_zero (S := S1024x512) hz2, View.ld_unit_zero (S := S512x2048) hz2]
/-- and in the output block the bias term of that. -/
theorem out1_A_3_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (x0 : Vec F S1024x512 .f32) (x1 : Vec F S512x2048 .bf16) (x2 : Vec F S2048 .f32) : out1_A_3 c i arg3 harg3 arg4 harg4 arg5 harg5 arg6 harg6 arg7 harg7 hc0 x0 x1 x2 = k1_pay3 (k1_pay2 x0 (k1_pay1 (F := F)) x1) x2 := by
  unfold out1_A_3
  rw [View.read_writes_eq_canon _ _ _ (cover1_A_3 c i arg3 harg3 arg4 harg4 arg5 harg5 arg6 harg6 arg7 harg7 hc0 x0 x1 x2)]
  unfold kernelRun1_A
  dsimp only
  sl_unfold_words
  rw [View.canon_unit_zero (S := S1024x2048) hz2, readCov_cons_unit_zero (S := S1024x2048) _ hz2, View.readCov_unit_zero (S := S1024x2048) _ hz2]
  simp only [View.readAt_eq_ld, harg3.read_unread, harg4.read_unread, harg5.read_unread, View.ld_unit_zero (S := S1024x512) hz2, View.ld_unit_zero (S := S512x2048) hz2, View.ld_unit_zero (S := S1024x2048) hz2, View.ld_unit_zero (S := S2048) hz1]
/-- The accumulating case leaves in the accumulator the accumulation term over what the point before left, -/
theorem sout1_B_0_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) : sout1_B_0 c i arg3 harg3 arg4 harg4 arg5 harg5 arg6 harg6 arg7 harg7 hc0 x0 x1 x2 xs0 = k1_pay2 x0 xs0 x1 := by
  unfold sout1_B_0
  rw [View.read_writes_eq_canon _ _ _ (scover1_B_0 c i arg3 harg3 arg4 harg4 arg5 harg5 arg6 harg6 arg7 harg7 hc0 x0 x1 x2 xs0)]
  unfold kernelRun1_B
  dsimp only
  sl_unfold_words
  rw [View.canon_unit_zero (S := S1024x2048) hz2]
  simp only [View.readAt_eq_ld, harg3.read_unread, harg4.read_unread, harg5.read_unread, harg7.read_unread, View.ld_unit_zero (S := S1024x512) hz2, View.ld_unit_zero (S := S512x2048) hz2, View.ld_unit_zero (S := S1024x2048) hz2, View.ld_unit_zero (S := S2048) hz1]
/-- and in the output block the bias term of that. -/
theorem out1_B_3_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (x0 : Vec F S1024x512 .f32) (x1 : Vec F S512x2048 .bf16) (x2 : Vec F S2048 .f32) (xs0 : Vec F S1024x2048 .f32) : out1_B_3 c i arg3 harg3 arg4 harg4 arg5 harg5 arg6 harg6 arg7 harg7 hc0 x0 x1 x2 xs0 = k1_pay3 (k1_pay2 x0 xs0 x1) x2 := by
  unfold out1_B_3
  rw [View.read_writes_eq_canon _ _ _ (cover1_B_3 c i arg3 harg3 arg4 harg4 arg5 harg5 arg6 harg6 arg7 harg7 hc0 x0 x1 x2 xs0)]
  unfold kernelRun1_B
  dsimp only
  sl_unfold_words
  rw [View.canon_unit_zero (S := S1024x2048) hz2, View.readCov_unit_zero (S := S1024x2048) _ hz2]
  simp only [View.readAt_eq_ld, harg3.read_unread, harg4.read_unread, harg5.read_unread, harg7.read_unread, View.ld_unit_zero (S := S1024x512) hz2, View.ld_unit_zero (S := S512x2048) hz2, View.ld_unit_zero (S := S1024x2048) hz2, View.ld_unit_zero (S := S2048) hz1]
variable (V : (c : Dev nD) → (b : Ref sig .tc) → Buf (Elt F) ((c : Thread nD τ).loc b))

/-- After a point whose contraction coordinate is zero: a fresh accumulation, and the output block from it. -/
theorem outsAt1_reset (c : Dev nD) (t : Fin cfg1.N) (h0 : t.val % 8 = 0) :
    outsAt1 V c t.val t.isLt =
      (k1_pay3 (k1_pay2 (iblk1 V c 0 t) (k1_pay1 (F := F)) (iblk1 V c 1 t)) (iblk1 V c 2 t),
       k1_pay2 (iblk1 V c 0 t) (k1_pay1 (F := F)) (iblk1 V c 1 t)) := by
  rw [outsAt1_A V c t h0, out1_A_3_eq, sout1_A_0_eq]

/-- After any other point: the accumulation over what the point before left, and the output block from it. -/
theorem outsAt1_step (c : Dev nD) (t : Fin cfg1.N) (h0 : ¬t.val % 8 = 0) :
    outsAt1 V c t.val t.isLt =
      (k1_pay3 (k1_pay2 (iblk1 V c 0 t) (outsAt1 V c (t.val - 1) (Nat.lt_of_le_of_lt (Nat.sub_le _ _) t.isLt)).2 (iblk1 V c 1 t)) (iblk1 V c 2 t),
       k1_pay2 (iblk1 V c 0 t) (outsAt1 V c (t.val - 1) (Nat.lt_of_le_of_lt (Nat.sub_le _ _) t.isLt)).2 (iblk1 V c 1 t)) := by
  rw [outsAt1_B V c t h0, out1_B_3_eq, sout1_B_0_eq]

end Cert.KernelIdeal.Hand

end
-- ==== Proof.KI.Value1.lean ====
/-
  The value of the second kernel region over the extended reals: the affine map x · w + b.

  The grid's point t = i·16 + j·8 + k works on row block i (1024 rows), column block j (2048 columns) and contraction
  block k (512 positions), k running fastest.  The body keeps an accumulator block: where k = 0 it restarts it at zero;
  at every point it adds the product of the 1024×512 block of x at (i, k) and the 512×2048 block of w at (k, j); and
  it overwrites the output block with the accumulator plus the bias block at j, repeated along the rows.  The output
  block is written back where k = 7.

  Entry by entry: the product of two blocks at (p, q) is ∑ₗ x[p, l] · w[l, q] over the block's 512 positions, and an
  entry of a block is the array's entry at block index × block size + the coordinate inside.  So, by induction on the
  point, the accumulator at (p, q) after point t is the sum of the first (k + 1)·512 terms of the contraction of row
  i·1024 + p of x with column j·2048 + q of w (a sum over a range splits into a shorter range and the next 512 terms;
  addition of extended reals is associative and commutative, which is all a finite sum needs).  At k = 7 that is the
  whole contraction over 4096 positions, and the output block adds the bias at column j·2048 + q: the affine map at
  that row and column.  The output blocks of the points with k = 7 tile the result (row r, column s lies in the block
  of the point (r / 1024)·16 + (s / 2048)·8 + 7), so after the last write-back the result array is the affine map.
-/
import proofs.«179641_j24034636989081_1_alg».proof.Proof.KI.Region1Value
import proofs.«179641_j24034636989081_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's three terms at an entry -/

/-- The reset term is the zero block. -/
theorem pay1_at (j : S1024x2048.Idx) : k1_pay1 (F := Ideal) j = 0 := by
  unfold k1_pay1
  rw [shapeCast_self]
  exact Ideal.ofBits_zero_f32

theorem lhs_k1_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_k1_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_k1_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_k1_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The block product into a zero accumulator, at entry (p, q): row p of the left block against column q of the right. -/
theorem matmul_at (xl : FVec Ideal S1024x512 .bf16) (w : FVec Ideal S512x2048 .bf16) (p : Fin 1024) (q : Fin 2048) :
    matmul dot_S1024x512_S512x2048_S1024x2048_1_0_0_1_n_n none xl w (constant (F := Ideal) S1024x2048 .f32 0x00000000#32) (ix2 p q)
      = ∑ l : Fin 512, xl (ix2 p l) * w (ix2 l q) := by
  simp only [matmul]
  rw [Ideal.matmul_constant_zero_apply, ← Equiv.sum_comp (ValueIdx.contrEquiv1 dot_S1024x512_S512x2048_S1024x2048_1_0_0_1_n_n 512 rfl rfl).symm]
  refine Finset.sum_congr rfl fun k _ => ?_
  have hk := ValueIdx.contrEquiv1_symm_val dot_S1024x512_S512x2048_S1024x2048_1_0_0_1_n_n 512 rfl rfl k
  have el : dot_S1024x512_S512x2048_S1024x2048_1_0_0_1_n_n.lhsIdx (ix2 p q) ((ValueIdx.contrEquiv1 dot_S1024x512_S512x2048_S1024x2048_1_0_0_1_n_n 512 rfl rfl).symm k) = ix2 p k := funext fun a => Fin.ext (by
    match a with
    | ⟨0, _⟩ => exact lhs_k1_0 _ _
    | ⟨1, _⟩ => exact (lhs_k1_1 _ _).trans hk)
  have er : dot_S1024x512_S512x2048_S1024x2048_1_0_0_1_n_n.rhsIdx (ix2 p q) ((ValueIdx.contrEquiv1 dot_S1024x512_S512x2048_S1024x2048_1_0_0_1_n_n 512 rfl rfl).symm k) = ix2 k q := funext fun a => Fin.ext (by
    match a with
    | ⟨0, _⟩ => exact (rhs_k1_0 _ _).trans hk
    | ⟨1, _⟩ => exact rhs_k1_1 _ _)
  rw [el, er]

/-- The accumulation term at entry (p, q): the accumulator there plus the block product there. -/
theorem pay2_at (x : Vec Ideal S1024x512 .f32) (acc : Vec Ideal S1024x2048 .f32) (w : Vec Ideal S512x2048 .bf16)
    (p : Fin 1024) (q : Fin 2048) :
    k1_pay2 (F := Ideal) x acc w (ix2 p q) = acc (ix2 p q) + ∑ l : Fin 512, x (ix2 p l) * w (ix2 l q) := by
  unfold k1_pay2
  rw [shapeCast_self, shapeCast_self, addf_apply, matmul_at]
  rfl

/-- The bias term at entry (p, q): the accumulator there plus the bias block at q. -/
theorem pay3_at (acc : Vec Ideal S1024x2048 .f32) (b : Vec Ideal S2048 .f32) (p : Fin 1024) (q : Fin 2048) :
    k1_pay3 (F := Ideal) acc b (ix2 p q) = acc (ix2 p q) + b (ix1 q) := by
  unfold k1_pay3
  rw [shapeCast_self, addf_apply]
  congr 1
  rw [broadcastTo_apply _ _ (ix2 p q) (ix2 (⟨0, Nat.one_pos⟩ : Fin 1) q) (fun a => by
    match a with
    | ⟨0, _⟩ => rfl
    | ⟨1, _⟩ => rfl)]
  rw [shapeCast_addUnit_apply (n := 1) ![2048]]
  congr 1
  funext a
  match a with
  | ⟨0, _⟩ => rfl

/-! ## The grid's index maps -/

/-- At point t = i·16 + j·8 + k the x window sits at block (i, k), the weight window at (k, j), the bias window at j and
    the output window at (i, j). -/
theorem idx_facts1 : ∀ t : Fin cfg1.N, win1_0.index t (0 : Fin 2) = t.val / 16
    ∧ win1_0.index t (1 : Fin 2) = t.val % 8
    ∧ win1_1.index t (0 : Fin 2) = t.val % 8
    ∧ win1_1.index t (1 : Fin 2) = t.val / 8 % 2
    ∧ win1_2.index t (0 : Fin 1) = t.val / 8 % 2
    ∧ win1_3.index t (0 : Fin 2) = t.val / 16
    ∧ win1_3.index t (1 : Fin 2) = t.val / 8 % 2 :=
  (by decide +kernel : ∀ t : Fin grid1.N, _)

/-! ## The arrays and the blocks, at their literal types -/

variable (V : (c : Dev nD) → (b : Ref sig .tc) → Buf (Elt Ideal) ((c : Thread nD τ).loc b))

abbrev xarr (c : Dev nD) : S8192x4096.Idx → EReal := V c main_arg0
abbrev warr (c : Dev nD) : S4096x4096.Idx → EReal := V c main_v3
abbrev barr (c : Dev nD) : S4096.Idx → EReal := V c main_v2
abbrev xblk (c : Dev nD) (t : Fin cfg1.N) : Vec Ideal S1024x512 .f32 := iblk1 V c 0 t
abbrev wblk (c : Dev nD) (t : Fin cfg1.N) : Vec Ideal S512x2048 .bf16 := iblk1 V c 1 t
abbrev bblk (c : Dev nD) (t : Fin cfg1.N) : Vec Ideal S2048 .f32 := iblk1 V c 2 t
/-- The accumulator after point n. -/
abbrev accAt (c : Dev nD) (n : ℕ) (hn : n < cfg1.N) : Vec Ideal S1024x2048 .f32 := (outsAt1 V c n hn).2

/-- An entry of the x block at a point is the array's entry at block index × block size + the coordinate inside. -/
theorem xblk_at (c : Dev nD) (t : Fin cfg1.N) (p : Fin 1024) (l : Fin 512) (r : Fin 8192) (k : Fin 4096)
    (hr : r.val = t.val / 16 * 1024 + p.val) (hk : k.val = t.val % 8 * 512 + l.val) :
    xblk V c t (ix2 p l) = xarr V c (ix2 r k) := by
  obtain ⟨e0, e1, -⟩ := idx_facts1 t
  show xarr V c (((cfg1.win 0).blk t).view.emb (ix2 p l)) = xarr V c (ix2 r k)
  congr 1
  funext a; apply Fin.ext
  match a with
  | ⟨0, _⟩ => show win1_0.index t (0 : Fin 2) * 1024 + 1 * p.val = r.val; rw [e0, hr]; omega
  | ⟨1, _⟩ => show win1_0.index t (1 : Fin 2) * 512 + 1 * l.val = k.val; rw [e1, hk]; omega

theorem wblk_at (c : Dev nD) (t : Fin cfg1.N) (l : Fin 512) (q : Fin 2048) (k : Fin 4096) (s : Fin 4096)
    (hk : k.val = t.val % 8 * 512 + l.val) (hs : s.val = t.val / 8 % 2 * 2048 + q.val) :
    wblk V c t (ix2 l q) = warr V c (ix2 k s) := by
  obtain ⟨-, -, e2, e3, -⟩ := idx_facts1 t
  show warr V c (((cfg1.win 1).blk t).view.emb (ix2 l q)) = warr V c (ix2 k s)
  congr 1
  funext a; apply Fin.ext
  match a with
  | ⟨0, _⟩ => show win1_1.index t (0 : Fin 2) * 512 + 1 * l.val = k.val; rw [e2, hk]; omega
  | ⟨1, _⟩ => show win1_1.index t (1 : Fin 2) * 2048 + 1 * q.val = s.val; rw [e3, hs]; omega

theorem bblk_at (c : Dev nD) (t : Fin cfg1.N) (q : Fin 2048) (s : Fin 4096)
    (hs : s.val = t.val / 8 % 2 * 2048 + q.val) :
    bblk V c t (ix1 q) = barr V c (ix1 s) := by
  obtain ⟨-, -, -, -, e4, -⟩ := idx_facts1 t
  show barr V c (((cfg1.win 2).blk t).view.emb (ix1 q)) = barr V c (ix1 s)
  congr 1
  funext a; apply Fin.ext
  match a with
  | ⟨0, _⟩ => show win1_2.index t (0 : Fin 1) * 2048 + 1 * q.val = s.val; rw [e4, hs]; omega

/-! ## The accumulator, point by point -/

/-- One term of the contraction, by its position kk in 0 … 4095 (zero past the end). -/
def term (X : S8192x4096.Idx → EReal) (Wm : S4096x4096.Idx → EReal) (r : Fin 8192) (s : Fin 4096) (kk : ℕ) : EReal :=
  if h : kk < 4096 then X (ix2 r ⟨kk, h⟩) * Wm (ix2 ⟨kk, h⟩ s) else 0

/-- The block product at a point is the next 512 terms of the contraction. -/
theorem block_sum (c : Dev nD) (t : Fin cfg1.N) (p : Fin 1024) (q : Fin 2048) (r : Fin 8192) (s : Fin 4096)
    (hr : r.val = t.val / 16 * 1024 + p.val) (hs : s.val = t.val / 8 % 2 * 2048 + q.val) :
    ∑ l : Fin 512, xblk V c t (ix2 p l) * wblk V c t (ix2 l q)
      = ∑ l ∈ Finset.range 512, term (xarr V c) (warr V c) r s (t.val % 8 * 512 + l) := by
  rw [Finset.sum_range (fun l => term (xarr V c) (warr V c) r s (t.val % 8 * 512 + l))]
  refine Finset.sum_congr rfl fun l _ => ?_
  have hl : l.val < 512 := l.isLt
  have hlt : t.val % 8 * 512 + l.val < 4096 := by omega
  unfold term
  rw [dif_pos hlt, xblk_at V c t p l r ⟨_, hlt⟩ hr rfl, wblk_at V c t l q ⟨_, hlt⟩ s rfl hs]

/-- After point n = i·16 + j·8 + k the accumulator at (p, q) is the first (k + 1)·512 terms of the contraction of row
    i·1024 + p of x with column j·2048 + q of the weights. -/
theorem accAt_eq (c : Dev nD) : ∀ (n : ℕ) (hn : n < cfg1.N) (p : Fin 1024) (q : Fin 2048) (r : Fin 8192) (s : Fin 4096),
    r.val = n / 16 * 1024 + p.val → s.val = n / 8 % 2 * 2048 + q.val →
    accAt V c n hn (ix2 p q) = ∑ kk ∈ Finset.range ((n % 8 + 1) * 512), term (xarr V c) (warr V c) r s kk := by
  intro n
  induction n using Nat.strong_induction_on with
  | _ n ih =>
    intro hn p q r s hr hs
    by_cases h0 : n % 8 = 0
    · have e := outsAt1_reset V c ⟨n, hn⟩ h0
      have e2 : accAt V c n hn = k1_pay2 (F := Ideal) (xblk V c ⟨n, hn⟩) (k1_pay1 (F := Ideal)) (wblk V c ⟨n, hn⟩) :=
        congrArg Prod.snd e
      rw [e2, pay2_at, pay1_at, zero_add, block_sum V c ⟨n, hn⟩ p q r s hr hs]
      show ∑ l ∈ Finset.range 512, term (xarr V c) (warr V c) r s (n % 8 * 512 + l) = _
      rw [h0]
      simp only [Nat.zero_mul, Nat.zero_add, Nat.one_mul]
    · have e := outsAt1_step V c ⟨n, hn⟩ h0
      have hn1 : n - 1 < cfg1.N := Nat.lt_of_le_of_lt (Nat.sub_le _ _) hn
      have e2 : accAt V c n hn = k1_pay2 (F := Ideal) (xblk V c ⟨n, hn⟩) (accAt V c (n - 1) hn1) (wblk V c ⟨n, hn⟩) :=
        congrArg Prod.snd e
      have hr' : r.val = (n - 1) / 16 * 1024 + p.val := by omega
      have hs' : s.val = (n - 1) / 8 % 2 * 2048 + q.val := by omega
      rw [e2, pay2_at, ih (n - 1) (by omega) hn1 p q r s hr' hs', block_sum V c ⟨n, hn⟩ p q r s hr hs]
      show _ + ∑ l ∈ Finset.range 512, term (xarr V c) (warr V c) r s (n % 8 * 512 + l) = _
      have ea : ((n - 1) % 8 + 1) * 512 = n % 8 * 512 := by omega
      have eb : (n % 8 + 1) * 512 = n % 8 * 512 + 512 := by omega
      rw [ea, eb, Finset.sum_range_add]

/-! ## The output block at a point that writes back -/

/-- The output block after a point is the bias term of the accumulator after it. -/
theorem out_eq (c : Dev nD) (t : Fin cfg1.N) :
    (outsAt1 V c t.val t.isLt).1 = k1_pay3 (F := Ideal) (accAt V c t.val t.isLt) (bblk V c t) := by
  by_cases h0 : t.val % 8 = 0
  · have e := outsAt1_reset V c t h0
    exact (congrArg Prod.fst e).trans (congrArg (fun a => k1_pay3 (F := Ideal) a (bblk V c t)) (congrArg Prod.snd e).symm)
  · have e := outsAt1_step V c t h0
    exact (congrArg Prod.fst e).trans (congrArg (fun a => k1_pay3 (F := Ideal) a (bblk V c t)) (congrArg Prod.snd e).symm)

/-- The whole contraction, by position, is the sum over the contracted axis. -/
theorem sum_term (X : S8192x4096.Idx → EReal) (Wm : S4096x4096.Idx → EReal) (r : Fin 8192) (s : Fin 4096) :
    ∑ kk ∈ Finset.range 4096, term X Wm r s kk = ∑ k : Fin 4096, X (ix2 r k) * Wm (ix2 k s) := by
  rw [Finset.sum_range (fun kk => term X Wm r s kk)]
  refine Finset.sum_congr rfl fun k _ => ?_
  unfold term
  rw [dif_pos k.isLt]

/-- The affine map of the arrays the region finds. -/
abbrev M1 (c : Dev nD) : S8192x4096.Idx → EReal :=
  fun i => Cert.Spec.mm (xarr V c) (warr V c) (barr V c) (i 0) (i 1)

/-- At a point with k = 7 the output block at (p, q) is the affine map at (i·1024 + p, j·2048 + q). -/
theorem out_at (c : Dev nD) (t : Fin cfg1.N) (h7 : t.val % 8 = 7) (p : Fin 1024) (q : Fin 2048) (r : Fin 8192) (s : Fin 4096)
    (hr : r.val = t.val / 16 * 1024 + p.val) (hs : s.val = t.val / 8 % 2 * 2048 + q.val) :
    (outsAt1 V c t.val t.isLt).1 (ix2 p q) = Cert.Spec.mm (xarr V c) (warr V c) (barr V c) r s := by
  rw [out_eq, pay3_at, accAt_eq V c t.val t.isLt p q r s hr hs, bblk_at V c t q s hs]
  have e : (t.val % 8 + 1) * 512 = 4096 := by omega
  rw [e, sum_term]
  rfl

/-- What a point with k = 7 writes back is its block of the affine map. -/
theorem flushed1_eq (c : Dev nD) (t : Fin cfg1.N) (hf : (cfg1.win 3).flush t = true) :
    (dat1 (F := Ideal) V c).flushed 3 t = ((cfg1.win 3).blk t).view.read (Elt Ideal) (M1 V c) := by
  have h7 : t.val % 8 = 7 := (flush1_3 t).mp hf
  obtain ⟨-, -, -, -, -, e5, e6⟩ := idx_facts1 t
  show (cfg1.win 3).cut (grid1.coords t) ((dat1 (F := Ideal) V c).after 3 t) = _
  rw [after1_3]
  funext j
  obtain ⟨p, q, rfl⟩ : ∃ (p : Fin 1024) (q : Fin 2048), j = ix2 p q := ⟨j 0, j 1, eq_ix2 j⟩
  have hN : cfg1.N = 128 := N_1
  have ht : t.val < 128 := hN ▸ t.isLt
  have hp : p.val < 1024 := p.isLt
  have hq : q.val < 2048 := q.isLt
  have hrb : t.val / 16 * 1024 + p.val < 8192 := by omega
  have hsb : t.val / 8 % 2 * 2048 + q.val < 4096 := by omega
  show (outsAt1 V c t.val t.isLt).1 (ix2 p q) = M1 V c (((cfg1.win 3).blk t).view.emb (ix2 p q))
  have hemb : ((cfg1.win 3).blk t).view.emb (ix2 p q) = (ix2 ⟨_, hrb⟩ ⟨_, hsb⟩ : S8192x4096.Idx) := by
    funext a; apply Fin.ext
    match a with
    | ⟨0, _⟩ => show win1_3.index t (0 : Fin 2) * 1024 + 1 * p.val = t.val / 16 * 1024 + p.val; rw [e5]; omega
    | ⟨1, _⟩ => show win1_3.index t (1 : Fin 2) * 2048 + 1 * q.val = t.val / 8 % 2 * 2048 + q.val; rw [e6]; omega
  rw [hemb]
  exact out_at V c t h7 p q ⟨_, hrb⟩ ⟨_, hsb⟩ rfl rfl

/-- An index of the array is in point t's output block iff each coordinate is in the block's range on its axis. -/
theorem mem_blk1 (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v4).slice (win1_3.rect t)).set ↔ _
  rw [View.set_slice_whole, Rect.mem_set_unit]
  exact Iff.rfl

/-- Every index of the result is in the output block of a point that writes back: row r, column s is covered by the
    point (r / 1024)·16 + (s / 2048)·8 + 7. -/
theorem cover1 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  have htb : (i 0).val / 1024 * 16 + (i 1).val / 2048 * 8 + 7 < cfg1.N := by omega
  obtain ⟨-, -, -, -, -, e5, e6⟩ := idx_facts1 ⟨_, htb⟩
  have q0 : win1_3.index ⟨_, htb⟩ (0 : Fin 2) = (i 0).val / 1024 := by rw [e5]; show ((i 0).val / 1024 * 16 + (i 1).val / 2048 * 8 + 7) / 16 = _; omega
  have q1 : win1_3.index ⟨_, htb⟩ (1 : Fin 2) = (i 1).val / 2048 := by rw [e6]; show ((i 0).val / 1024 * 16 + (i 1).val / 2048 * 8 + 7) / 8 % 2 = _; omega
  refine ⟨⟨_, htb⟩, (flush1_3 _).mpr (by show ((i 0).val / 1024 * 16 + (i 1).val / 2048 * 8 + 7) % 8 = 7; omega), ?_⟩
  rw [mem_blk1]
  intro a
  match a with
  | ⟨0, _⟩ => show win1_3.index ⟨_, htb⟩ (0 : Fin 2) * 1024 ≤ (i 0).val ∧ (i 0).val < win1_3.index ⟨_, htb⟩ (0 : Fin 2) * 1024 + 1024; rw [q0]; omega
  | ⟨1, _⟩ => show win1_3.index ⟨_, htb⟩ (1 : Fin 2) * 2048 ≤ (i 1).val ∧ (i 1).val < win1_3.index ⟨_, htb⟩ (1 : Fin 2) * 2048 + 2048; rw [q1]; omega

/-- After the last write-back the output array is the affine map of x, the weight array and the bias array. -/
theorem final1_3 (c : Dev nD) :
    (dat1 (F := Ideal) V c).arrAt 3 cfg1.N = fun i : S8192x4096.Idx => Cert.Spec.mm (V c main_arg0) (V c main_v3) (V c main_v2) (i 0) (i 1) :=
  (dat1 (F := Ideal) V c).arrAt_eq_of_cover 3 (M1 V c) (flushed1_eq V c) cover1

end Cert.KernelIdeal.Hand

end
-- ==== Proof.KI.Value.lean ====
/-
  The idealized kernel's result is the common function of the arguments.

  The bias row the host stretches compute is bmu + softplus(brho) · beps; the weight matrix the first region leaves is
  mu + softplus(rho) · eps; the second region leaves, at every entry, the row of x against the column of that matrix
  plus the bias entry.  Composed, the result array is the affine map of the arguments.
-/
import proofs.«179641_j24034636989081_1_alg».proof.Proof.KI.Run
import proofs.«179641_j24034636989081_1_alg».proof.Proof.KI.Value0
import proofs.«179641_j24034636989081_1_alg».proof.Proof.KI.Value1
import proofs.«179641_j24034636989081_1_alg».proof.Proof.Spec
import Idealize.ShloMosaic.Lib.StableHlo.Run
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The comparison of an extended real with itself for inequality is never true. -/
theorem cmp_une_self' (y : EReal) : Ideal.cmp .une y y = 0#1 := by
  simp [Ideal.cmp]

/-- The host's guarded softplus of one element: the guard (a number differing from itself) fails, subtracting zero
    changes nothing, and what is left is max y 0 + log(1 + exp(−max y (−y))). -/
theorem host_softplus_at (y : Ideal .f32) :
    Scalar.select
        (FloatOps.cmpf (F := Ideal) .une (FloatOps.subf y (FloatOps.ofBits (F := Ideal) .f32 0x00000000#32))
          (FloatOps.subf y (FloatOps.ofBits (F := Ideal) .f32 0x00000000#32)))
        (FloatOps.addf y (FloatOps.ofBits (F := Ideal) .f32 0x00000000#32))
        (FloatOps.addf (FloatOps.maximumf y (FloatOps.ofBits (F := Ideal) .f32 0x00000000#32))
          (FloatOps.hostUnary .log1p (FloatOps.hostUnary .exp (FloatOps.hostNegf (FloatOps.hostAbsf
            (FloatOps.subf y (FloatOps.ofBits (F := Ideal) .f32 0x00000000#32)))))))
      = Cert.Spec.sp y := by
  rw [Ideal.cmpf_def, cmp_une_self', select_zero]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    Ideal.absf_def, sub_zero, Cert.Spec.sp]

/-- The zero row the host's softplus compares against. -/
abbrev zrow : FVec Ideal S4096 .f32 := broadcastInDim S4096 ![] bcast_S_S4096 (constant (F := Ideal) S_ .f32 0x00000000#32)

/-- The host stretches' composed term for the bias row, of the three vectors it is computed from. -/
def biasTerm (b3 b4 b6 : FVec Ideal S4096 .f32) : FVec Ideal S4096 .f32 :=
  addf b3 (mulf (select (cmpf .une (subf b4 zrow) (subf b4 zrow)) (addf b4 zrow)
    (addf (maximumf b4 zrow) (Host.log1p (Host.exp (Host.negf (Host.absf (subf b4 zrow))))))) b6)

theorem biasTerm_apply (b3 b4 b6 : FVec Ideal S4096 .f32) (n : Fin 4096) :
    biasTerm b3 b4 b6 (ix1 n) = Cert.Spec.bias b3 b4 b6 n := by
  unfold biasTerm Cert.Spec.bias
  rw [← host_softplus_at (b4 (ix1 n))]
  rfl

/-- The bias row after the host stretches: bmu + softplus(brho) · beps. -/
theorem bias_eq (c : Dev nD) :
    (Gen.V2 (F := Ideal) m c (Proc.devRef .tc main_v2) : S4096.Idx → EReal)
      = Cert.Spec.B (m ((c : Thread nD τ).loc main_arg3)) (m ((c : Thread nD τ).loc main_arg4)) (m ((c : Thread nD τ).loc main_arg6)) := by
  have e : (Gen.V2 (F := Ideal) m c (Proc.devRef .tc main_v2) : S4096.Idx → EReal)
      = biasTerm (m ((c : Thread nD τ).loc main_arg3)) (m ((c : Thread nD τ).loc main_arg4)) (m ((c : Thread nD τ).loc main_arg6)) := by
    dsimp only [Gen.V2, Gen.V1, Gen.V0]
    after_results
    rfl
  rw [e]
  funext i
  obtain ⟨n, rfl⟩ : ∃ n : Fin 4096, i = ix1 n := ⟨i 0, eq_ix1 i⟩
  exact biasTerm_apply _ _ _ n

/-- The result array the second region leaves is the common function of the arguments: the second region's value
    at the first region's value and the host's bias row, each read back to the launch memory. -/
theorem value_eq (c : Dev nD) :
    (dat1 (F := Ideal) (V3 m) c).arrAt 3 cfg1.N
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [final1_3 (V3 m) c]
  funext i
  show Cert.Spec.mm (V3 m c main_arg0) (V3 m c main_v3) (V3 m c main_v2) (i 0) (i 1) = _
  rw [V3_main_arg0 m c, V3_main_v3 m c, final0_3 (V2 m) c, V2_main_arg1 m c, V2_main_arg2 m c, V2_main_arg5 m c,
    V3_main_v2 m c, bias_eq m c]
  rfl

/-- Every weakly fair execution of the idealized kernel program ends with its result array at the common function of
    the argument arrays at launch, and the arguments unchanged. -/
theorem run_G (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => ⟨(h c).1.trans (value_eq m c), (h c).2⟩) (run_value (F := Ideal) m ρ)

end Cert.KernelIdeal.Hand

end
-- ==== Proof.RefG.lean ====
/-
  The reference program's result is the common function G.

  The reference evaluates, entrywise, w = mu + softplus(rho) · eps on 4096×4096 arrays, b = bmu + softplus(brho) · beps on
  4096-vectors, and out[r,s] = (∑ₖ x[r,k] · w[k,s]) + b[s].  Its softplus is the guarded form
      select (t ≠ t) (y + 0) (max y 0 + log1p (exp (−|t|)))   with t = y − 0,
  the guard being the test for a not-a-number.  Over the extended reals no number differs from itself, so the guard is
  never taken; t = y because subtracting zero changes nothing; and |t| = max t (−t).  What is left is exactly
  max y 0 + log(1 + exp(−max y (−y))), the function sp of the specification.  The two broadcasts of the bias row read
  it at the column coordinate, and the contraction reads x at (r, k) and w at (k, s).
-/
import proofs.«179641_j24034636989081_1_alg».proof.Proof.Gen.ReferenceIdeal.Run
import proofs.«179641_j24034636989081_1_alg».proof.Proof.Gen.ReferenceIdeal.Read
import proofs.«179641_j24034636989081_1_alg».proof.Proof.Spec
import Idealize.ShloMosaic.PureOps.Ideal
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## One element -/

/-- On the extended reals no number differs from itself: the unordered-or-unequal comparison of `a` with `a` is the
    zero bit. -/
theorem cmp_une_self (a : EReal) : Ideal.cmp .une a a = 0#1 := by
  simp [Ideal.cmp]

/-- The reference's guarded softplus of one element, with `z` the zero constant: the guard `t ≠ t` fails, `y − 0 = y`,
    and the remaining branch is `max y 0 + log1p (exp (−max y (−y)))`. -/
theorem softplus_at (y : Ideal .f32) :
    Scalar.select
        (FloatOps.cmpf (F := Ideal) .une (FloatOps.subf y (FloatOps.ofBits (F := Ideal) .f32 0x00000000#32))
          (FloatOps.subf y (FloatOps.ofBits (F := Ideal) .f32 0x00000000#32)))
        (FloatOps.addf y (FloatOps.ofBits (F := Ideal) .f32 0x00000000#32))
        (FloatOps.addf (FloatOps.maximumf y (FloatOps.ofBits (F := Ideal) .f32 0x00000000#32))
          (FloatOps.hostUnary .log1p (FloatOps.hostUnary .exp (FloatOps.hostNegf (FloatOps.hostAbsf
            (FloatOps.subf y (FloatOps.ofBits (F := Ideal) .f32 0x00000000#32)))))))
      = Cert.Spec.sp y := by
  rw [Ideal.cmpf_def, cmp_une_self, select_zero]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    Ideal.absf_def, sub_zero, Cert.Spec.sp]

/-! ## The two softplus stages, read at an index -/

/-- The matrix softplus stage at an index is `sp` of the operand there. -/
theorem v0_apply (x2 : (⟨S4096x4096, .f32⟩ : BufTy).Contents (Elt Ideal)) (i : S4096x4096.Idx) :
    val_main_v0 (F := Ideal) x2 i = Cert.Spec.sp (x2 i) := by
  simp only [val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  exact softplus_at (x2 i)

/-- The vector softplus stage at an index is `sp` of the operand there. -/
theorem v3_apply (x4 : (⟨S4096, .f32⟩ : BufTy).Contents (Elt Ideal)) (i : S4096.Idx) :
    val_main_v3 (F := Ideal) x4 i = Cert.Spec.sp (x4 i) := by
  simp only [val_main_v3_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  exact softplus_at (x4 i)

/-- The weight stage at (k, n): mu + sp(rho) · eps there. -/
theorem v2_apply (x1 x2 x5 : (⟨S4096x4096, .f32⟩ : BufTy).Contents (Elt Ideal)) (k n : Fin 4096) :
    val_main_v2 (F := Ideal) x1 x2 x5 (ix2 k n) = Cert.Spec.wt x1 x2 x5 k n := by
  rw [val_main_v2_apply, val_main_v1_apply, v0_apply]
  rfl

/-- The bias stage at n: bmu + sp(brho) · beps there. -/
theorem v5_apply (x3 x4 x6 : (⟨S4096, .f32⟩ : BufTy).Contents (Elt Ideal)) (n : Fin 4096) :
    val_main_v5 (F := Ideal) x3 x4 x6 (ix1 n) = Cert.Spec.bias x3 x4 x6 n := by
  rw [val_main_v5_apply, val_main_v4_apply, v3_apply]
  rfl

/-! ## The whole result -/

/-- The reference's result array is `G` of the seven argument arrays. -/
theorem result_eq (x0 : (⟨S8192x4096, .f32⟩ : BufTy).Contents (Elt Ideal))
    (x1 x2 : (⟨S4096x4096, .f32⟩ : BufTy).Contents (Elt Ideal)) (x3 x4 : (⟨S4096, .f32⟩ : BufTy).Contents (Elt Ideal))
    (x5 : (⟨S4096x4096, .f32⟩ : BufTy).Contents (Elt Ideal)) (x6 : (⟨S4096, .f32⟩ : BufTy).Contents (Elt Ideal)) :
    Cert.ReferenceIdeal.Read.val_main_v9 (F := Ideal) x0 x1 x2 x3 x4 x5 x6 = Cert.Spec.G x0 x1 x2 x3 x4 x5 x6 := by
  funext i
  obtain ⟨r, s, rfl⟩ : ∃ (r : Fin 8192) (s : Fin 4096), i = ix2 r s := ⟨i 0, i 1, eq_ix2 i⟩
  rw [Cert.Spec.G_ix2, val_main_v9_apply, val_main_v6_apply, val_main_v8_apply, val_main_v7_apply]
  have eb : idx_main_v7 (idx_main_v8 (ix2 r s : S8192x4096.Idx)) = ix1 s :=
    funext fun a => by match a with | ⟨0, _⟩ => rfl
  rw [eb, v5_apply]
  have es : ∀ k : Fin 4096,
      x0 (lidx_main_v6 (ix2 r s : S8192x4096.Idx) k)
          * val_main_v2 (F := Ideal) x1 x2 x5 (ridx_main_v6 (ix2 r s : S8192x4096.Idx) k)
        = x0 (ix2 r k) * Cert.Spec.wt x1 x2 x5 k s := fun k => by
    have el : lidx_main_v6 (ix2 r s : S8192x4096.Idx) k = ix2 r k :=
      funext fun a => by match a with | ⟨0, _⟩ => rfl | ⟨1, _⟩ => rfl
    have er : ridx_main_v6 (ix2 r s : S8192x4096.Idx) k = ix2 k s :=
      funext fun a => by match a with | ⟨0, _⟩ => rfl | ⟨1, _⟩ => rfl
    rw [el, er, v2_apply]
  rw [Finset.sum_congr rfl fun k _ => es k]
  rfl

/-! ## The run -/

/-- Every weakly fair execution of the reference ends with its result array at `G` of the argument arrays at launch,
    and the arguments unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v9)
            = Cert.Spec.G
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
                (m' ((c.tc : Thread Cert.ReferenceIdeal.nD Cert.ReferenceIdeal.τ).loc Cert.ReferenceIdeal.main_arg5))
                (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono
    (fun _ h c => ⟨(h c).1.trans ((val_main_v9_eq (F := Ideal) _ _ _ _ _ _ _).trans (result_eq _ _ _ _ _ _ _)), (h c).2⟩)
    (Cert.ReferenceIdeal.Value.run (F := Ideal) m' ρ')

end Cert.ReferenceIdeal.RefValue

end
-- ==== Proof.lean ====
/-
  A Bayesian linear layer: out = x · (mu + softplus(rho) ∘ eps) + (bmu + softplus(brho) ∘ beps), with x of 8192 × 4096,
  the three weight parameters 4096 × 4096 and the three bias parameters vectors of 4096.

  The kernel program computes the bias row with host operations, builds the weight matrix in a first kernel region
  (32 blocks of 512 × 1024, entrywise), and multiplies in a second region whose grid runs over 8 row blocks, 2 column
  blocks and 8 blocks of the contracted axis, an accumulator being reset where the contraction block is the first,
  increased by one block product at every point, and written out with the bias added.  The reference computes the same
  weight matrix and bias row with host operations and one whole matrix product.

  Over the extended reals the two agree entry by entry: narrowing the weights or the input changes nothing; softplus is
  the same function of one entry on both sides once the comparison of a number with itself is decided; and the
  accumulated sum of the eight block products is the sum over the whole contracted axis, a finite sum in a commutative
  monoid regrouped.  No finiteness of the inputs is needed.

  Each of the two kernel programs runs to the end with its arguments unchanged: the buffers' contents are followed
  through the two host stretches and the two regions, each region's body proved at every grid point.  The
  reference's frame is its run with the result dropped.
-/
import proofs.«179641_j24034636989081_1_alg».proof.Defs
import proofs.«179641_j24034636989081_1_alg».proof.Proof.Gen.Kernel
import proofs.«179641_j24034636989081_1_alg».proof.Proof.Gen.KernelIdeal
import proofs.«179641_j24034636989081_1_alg».proof.Proof.Gen.ReferenceIdeal
import proofs.«179641_j24034636989081_1_alg».proof.Proof.Gen.Pre_finite_inputs
import proofs.«179641_j24034636989081_1_alg».proof.Proof.Gen.ReferenceIdeal.Run
import proofs.«179641_j24034636989081_1_alg».proof.Proof.K.Run
import proofs.«179641_j24034636989081_1_alg».proof.Proof.KI.Run
import proofs.«179641_j24034636989081_1_alg».proof.Proof.KI.Value
import proofs.«179641_j24034636989081_1_alg».proof.Proof.RefG
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel and the idealized reference, run from memories that agree on the arguments, both end with
    the result array at the one function `Cert.Spec.G` of the arguments. -/
theorem algebraic : Cert.algebraic_KernelIdeal_ReferenceIdeal := by
  intro m ρ m' ρ' _ hagree
  refine ⟨_, Cert.KernelIdeal.Hand.run_G m ρ, ?_⟩
  refine (θ_run Cert.ReferenceIdeal.defs _ _).mono (fun _ h c => ⟨(h c).1.trans ?_, (h c).2⟩)
    (Cert.ReferenceIdeal.RefValue.run_G m' ρ')
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
